-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S256x128 .f32) (main_arg6 : FVec F S256x128 .f32) (main_arg7 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x600000 32) (main_arg2 : FVec F S128x256 .f32) (main_arg3 : FVec F S128x256 .f32) (main_arg4 : FVec F S256 .f32) (main_arg5 : FVec F S256x128 .f32) (main_arg6 : FVec F S256x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_v13 main_v16
-- ==== Kernel.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S50000x256 : Shape := ⟨2, ![50000, 256]⟩
abbrev S5000x128 : Shape := ⟨2, ![5000, 128]⟩
abbrev S5000x256 : Shape := ⟨2, ![5000, 256]⟩
abbrev S1x256 : Shape := ⟨2, ![1, 256]⟩
abbrev S600000x256 : Shape := ⟨2, ![600000, 256]⟩
abbrev S1x128 : Shape := ⟨2, ![1, 128]⟩

abbrev nBuf : Space → Nat
  | .hbm => 64
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S256x128, .f32⟩
  | .hbm, ⟨7, _⟩ => ⟨S128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S50000x128, .f32⟩
  | .hbm, ⟨23, _⟩ => ⟨S600000x1, .i32⟩
  | .hbm, ⟨24, _⟩ => ⟨S50000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S50000, .f32⟩
  | .hbm, ⟨29, _⟩ => ⟨S600000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x256, .f32⟩
  | .hbm, ⟨38, _⟩ => ⟨S_, .i32⟩
  | .hbm, ⟨39, _⟩ => ⟨S600000, .i32⟩
  | .hbm, ⟨40, _⟩ => ⟨S600000, .i1⟩
  | .hbm, ⟨41, _⟩ => ⟨S_, .i32⟩
  | .hbm, ⟨42, _⟩ => ⟨S600000, .i32⟩
  | .hbm, ⟨43, _⟩ => ⟨S600000, .i32⟩
  | .hbm, ⟨44, _⟩ => ⟨S600000, .i32⟩
  | .hbm, ⟨45, _⟩ => ⟨S600000x1, .i32⟩
  | .hbm, ⟨46, _⟩ => ⟨S600000x256, .f32⟩
  | .hbm, ⟨47, _⟩ => ⟨S_, .f32⟩
  | .hbm, ⟨48, _⟩ => ⟨S50000x256, .f32⟩
  | .hbm, ⟨49, _⟩ => ⟨S600000x1, .i32⟩
  | .hbm, ⟨50, _⟩ => ⟨S50000x256, .f32⟩
  | .hbm, ⟨51, _⟩ => ⟨S_, .f32⟩
  | .hbm, ⟨52, _⟩ => ⟨S600000, .f32⟩
  | .hbm, ⟨53, _⟩ => ⟨S_, .f32⟩
  | .hbm, ⟨54, _⟩ => ⟨S50000, .f32⟩
  | .hbm, ⟨55, _⟩ => ⟨S600000x1, .i32⟩
  | .hbm, ⟨56, _⟩ => ⟨S50000, .f32⟩
  | .hbm, ⟨57, _⟩ => ⟨S_, .f32⟩
  | .hbm, ⟨58, _⟩ => ⟨S50000, .f32⟩
  | .hbm, ⟨59, _⟩ => ⟨S50000, .f32⟩
  | .hbm, ⟨60, _⟩ => ⟨S50000x1, .f32⟩
  | .hbm, ⟨61, _⟩ => ⟨S50000x256, .f32⟩
  | .hbm, ⟨62, _⟩ => ⟨S50000x256, .f32⟩
  | .hbm, ⟨63, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x256, .f32⟩
  | .local _ .vmem, ⟨5, _⟩ => ⟨S128x256, .f32⟩
  | .local _ .vmem, ⟨6, _⟩ => ⟨S256, .f32⟩
  | .local _ .vmem, ⟨7, _⟩ => ⟨S5000x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S256x128, .f32⟩
  | .local _ .vmem, ⟨14, _⟩ => ⟨S256x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S5000x128_S128x256_S5000x256_1_0_0_1_n_n_wf : DotDims.WF S5000x128 S128x256 S5000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S50000x256.size a
  hwx0_5 : ∀ i : grid0.Coords, EltTy.bits .f32 = 32 ∨ (Rect.block (s := S50000x256) S5000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S50000x256.size a
  hwx1_1 : ∀ i : grid1.Coords, EltTy.bits .f32 = 32 ∨ (Rect.block (s := S50000x256) S5000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S600000x256 : Shape := ⟨2, ![600000, 256]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S256x128, .f32⟩
  | .hbm, ⟨7, _⟩ => ⟨S128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S50000x128, .f32⟩
  | .hbm, ⟨23, _⟩ => ⟨S600000x1, .i32⟩
  | .hbm, ⟨24, _⟩ => ⟨S50000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S50000, .f32⟩
  | .hbm, ⟨29, _⟩ => ⟨S600000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x256, .f32⟩
  | .hbm, ⟨38, _⟩ => ⟨S50000x256, .f32⟩
  | .hbm, ⟨39, _⟩ => ⟨S50000x256, .f32⟩
  | .hbm, ⟨40, _⟩ => ⟨S1x256, .f32⟩
  | .hbm, ⟨41, _⟩ => ⟨S50000x256, .f32⟩
  | .hbm, ⟨42, _⟩ => ⟨S50000x256, .f32⟩
  | .hbm, ⟨43, _⟩ => ⟨S_, .f32⟩
  | .hbm, ⟨44, _⟩ => ⟨S50000x256, .f32⟩
  | .hbm, ⟨45, _⟩ => ⟨S50000x256, .f32⟩
  | .hbm, ⟨46, _⟩ => ⟨S_, .i32⟩
  | .hbm, ⟨47, _⟩ => ⟨S600000, .i32⟩
  | .hbm, ⟨48, _⟩ => ⟨S600000, .i1⟩
  | .hbm, ⟨49, _⟩ => ⟨S_, .i32⟩
  | .hbm, ⟨50, _⟩ => ⟨S600000, .i32⟩
  | .hbm, ⟨51, _⟩ => ⟨S600000, .i32⟩
  | .hbm, ⟨52, _⟩ => ⟨S600000, .i32⟩
  | .hbm, ⟨53, _⟩ => ⟨S600000x1, .i32⟩
  | .hbm, ⟨54, _⟩ => ⟨S600000x256, .f32⟩
  | .hbm, ⟨55, _⟩ => ⟨S_, .f32⟩
  | .hbm, ⟨56, _⟩ => ⟨S50000x256, .f32⟩
  | .hbm, ⟨57, _⟩ => ⟨S600000x1, .i32⟩
  | .hbm, ⟨58, _⟩ => ⟨S50000x256, .f32⟩
  | .hbm, ⟨59, _⟩ => ⟨S_, .f32⟩
  | .hbm, ⟨60, _⟩ => ⟨S600000, .f32⟩
  | .hbm, ⟨61, _⟩ => ⟨S_, .f32⟩
  | .hbm, ⟨62, _⟩ => ⟨S50000, .f32⟩
  | .hbm, ⟨63, _⟩ => ⟨S600000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x256, .f32⟩
  | .hbm, ⟨70, _⟩ => ⟨S50000x256, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x256_S50000x256_1_0_0_1_n_n_wf : DotDims.WF S50000x128 S128x256 S50000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S50000x256_S256x128_S50000x128_1_0_0_1_n_n_wf : DotDims.WF S50000x256 S256x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Sage.lean ====
/-
  Two layers of mean aggregation over a graph, each followed by a fused linear map: the function both programs compute.

  Nodes carry feature rows; an edge list gives a source row and a destination row per edge (a negative source index is
  wrapped once by the node count, as indexing does). One layer: gather each edge's source row, add it into its
  destination row, divide each row by its in-degree (at least 1) to get the neighbourhood MEAN, and map
  `mean · Wl + x · Wr + b`. The first layer is followed by `max(·, 0)`; the second is not. Written once here, over the
  host operations the reference is printed with, so that each program's result is stated as the SAME term.
-/
import proofs.«143956_j10514079941583_1_alg».proof.Proof.Gen.ReferenceIdeal.Run

noncomputable section

namespace Cert.Sage

open Cert.ReferenceIdeal Cert.ReferenceIdeal.Gen Idealize.ShloMosaic

variable {F : FTy → Type} [FloatOps F]

/-- Row 0 of the edge list: the source node of every edge. -/
def edgeSrc (e : (⟨S2x600000, .i32⟩ : BufTy).Contents (Elt F)) : (⟨S600000, .i32⟩ : BufTy).Contents (Elt F) :=
  shapeCast _ (extractStridedSlice S1x600000 ![0, 0] e slices_S2x600000_S1x600000_0_0) shapeCasts_S1x600000_S600000

/-- Row 1 of the edge list: the destination node of every edge. -/
def edgeDst (e : (⟨S2x600000, .i32⟩ : BufTy).Contents (Elt F)) : (⟨S600000, .i32⟩ : BufTy).Contents (Elt F) :=
  shapeCast _ (extractStridedSlice S1x600000 ![1, 0] e slices_S2x600000_S1x600000_1_0) shapeCasts_S1x600000_S600000

/-- The sources as a column of gather indices, a negative one wrapped by the node count. -/
def srcCol (s : (⟨S600000, .i32⟩ : BufTy).Contents (Elt F)) : (⟨S600000x1, .i32⟩ : BufTy).Contents (Elt F) :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 50000#32))) s)

/-- The destinations as a column of scatter indices. -/
def dstCol (d : (⟨S600000, .i32⟩ : BufTy).Contents (Elt F)) : (⟨S600000x1, .i32⟩ : BufTy).Contents (Elt F) :=
  broadcastInDim S600000x1 ![0] bcast_S600000_S600000x1_0 d

/-- Each node's in-degree, at least 1: ones added at the destinations, then `max(·, 1)`. -/
def degree (d : (⟨S600000, .i32⟩ : BufTy).Contents (Elt F)) : (⟨S50000, .f32⟩ : BufTy).Contents (Elt F) :=
  maximumf
    (Host.scatterAdd (F := F) scatter_S50000_S600000x1_S600000_n_0_0_1
      (broadcastInDim S50000 ![] bcast_S_S50000 (constant (F := F) S_ .f32 0x00000000#32)) (dstCol d)
      (broadcastInDim S600000 ![] bcast_S_S600000 (constant (F := F) S_ .f32 0x3F800000#32)))
    (broadcastInDim S50000 ![] bcast_S_S50000 (constant (F := F) S_ .f32 0x3F800000#32))

/-- The neighbourhood mean of 128-wide rows. -/
def mean128 (x : (⟨S50000x128, .f32⟩ : BufTy).Contents (Elt F)) (s d : (⟨S600000, .i32⟩ : BufTy).Contents (Elt F)) :
    (⟨S50000x128, .f32⟩ : BufTy).Contents (Elt F) :=
  Host.divf (F := F)
    (Host.scatterAdd (F := F) scatter_S50000x128_S600000x1_S600000x128_1_0_0_1
      (broadcastInDim S50000x128 ![] bcast_S_S50000x128 (constant (F := F) S_ .f32 0x00000000#32)) (dstCol d)
      (Host.gather gather_S50000x128_S600000x1_S600000x128_1_0_n_n_0_1_1128 x (srcCol s)))
    (broadcastInDim S50000x128 ![0, 1] bcast_S50000x1_S50000x128_0_1 (broadcastInDim S50000x1 ![0] bcast_S50000_S50000x1_0 (degree d)))

/-- The neighbourhood mean of 256-wide rows. -/
def mean256 (h : (⟨S50000x256, .f32⟩ : BufTy).Contents (Elt F)) (s d : (⟨S600000, .i32⟩ : BufTy).Contents (Elt F)) :
    (⟨S50000x256, .f32⟩ : BufTy).Contents (Elt F) :=
  Host.divf (F := F)
    (Host.scatterAdd (F := F) scatter_S50000x256_S600000x1_S600000x256_1_0_0_1
      (broadcastInDim S50000x256 ![] bcast_S_S50000x256 (constant (F := F) S_ .f32 0x00000000#32)) (dstCol d)
      (Host.gather gather_S50000x256_S600000x1_S600000x256_1_0_n_n_0_1_1256 h (srcCol s)))
    (broadcastInDim S50000x256 ![0, 1] bcast_S50000x1_S50000x256_0_1 (broadcastInDim S50000x1 ![0] bcast_S50000_S50000x1_0 (degree d)))

/-- The first linear map, 128 → 256, followed by `max(·, 0)`. -/
def layer1 (mean x : (⟨S50000x128, .f32⟩ : BufTy).Contents (Elt F)) (wl wr : (⟨S128x256, .f32⟩ : BufTy).Contents (Elt F))
    (b : (⟨S256, .f32⟩ : BufTy).Contents (Elt F)) : (⟨S50000x256, .f32⟩ : BufTy).Contents (Elt F) :=
  maximumf
    (addf
      (addf (Host.dotGeneral (F := F) dot_S50000x128_S128x256_S50000x256_1_0_0_1_n_n none mean wl)
        (Host.dotGeneral (F := F) dot_S50000x128_S128x256_S50000x256_1_0_0_1_n_n none x wr))
      (broadcastInDim S50000x256 ![0, 1] bcast_S1x256_S50000x256_0_1 (broadcastInDim S1x256 ![1] bcast_S256_S1x256_1 b)))
    (broadcastInDim S50000x256 ![] bcast_S_S50000x256 (constant (F := F) S_ .f32 0x00000000#32))

/-- The second linear map, 256 → 128. -/
def layer2 (mean h : (⟨S50000x256, .f32⟩ : BufTy).Contents (Elt F)) (wl wr : (⟨S256x128, .f32⟩ : BufTy).Contents (Elt F))
    (b : (⟨S128, .f32⟩ : BufTy).Contents (Elt F)) : (⟨S50000x128, .f32⟩ : BufTy).Contents (Elt F) :=
  addf
    (addf (Host.dotGeneral (F := F) dot_S50000x256_S256x128_S50000x128_1_0_0_1_n_n none mean wl)
      (Host.dotGeneral (F := F) dot_S50000x256_S256x128_S50000x128_1_0_0_1_n_n none h wr))
    (broadcastInDim S50000x128 ![0, 1] bcast_S1x128_S50000x128_0_1 (broadcastInDim S1x128 ![1] bcast_S128_S1x128_1 b))

/-- The hidden features: the first layer of the node features. -/
def hidden (x : (⟨S50000x128, .f32⟩ : BufTy).Contents (Elt F)) (e : (⟨S2x600000, .i32⟩ : BufTy).Contents (Elt F))
    (wl1 wr1 : (⟨S128x256, .f32⟩ : BufTy).Contents (Elt F)) (b1 : (⟨S256, .f32⟩ : BufTy).Contents (Elt F)) :
    (⟨S50000x256, .f32⟩ : BufTy).Contents (Elt F) :=
  layer1 (mean128 x (edgeSrc e) (edgeDst e)) x wl1 wr1 b1

/-- The whole function: the second layer of the hidden features. -/
def sage (x : (⟨S50000x128, .f32⟩ : BufTy).Contents (Elt F)) (e : (⟨S2x600000, .i32⟩ : BufTy).Contents (Elt F))
    (wl1 wr1 : (⟨S128x256, .f32⟩ : BufTy).Contents (Elt F)) (b1 : (⟨S256, .f32⟩ : BufTy).Contents (Elt F))
    (wl2 wr2 : (⟨S256x128, .f32⟩ : BufTy).Contents (Elt F)) (b2 : (⟨S128, .f32⟩ : BufTy).Contents (Elt F)) :
    (⟨S50000x128, .f32⟩ : BufTy).Contents (Elt F) :=
  layer2 (mean256 (hidden x e wl1 wr1 b1) (edgeSrc e) (edgeDst e)) (hidden x e wl1 wr1 b1) wl2 wr2 b2

set_option maxRecDepth 8192 in
/-- The reference's composed term IS this function of its arguments: the same operations in the same order. -/
theorem reference_eq (m : (ℓ : Loc nD τ sig) → Buf (Elt F) ℓ) (c : Dev nD) :
    Cert.ReferenceIdeal.Value.res_main_v54 m c
      = sage (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  unfold Cert.ReferenceIdeal.Value.res_main_v54 sage hidden layer2 layer1 mean256 mean128 degree dstCol srcCol edgeSrc edgeDst
  rfl

end Cert.Sage

end
-- ==== Proof.HostChain.lean ====
/-
  The kernel program's two stretches of host operations, read back as the mean aggregation.

  Before the first kernel region the host slices the edge list into sources and destinations and takes the neighbourhood
  mean of the node features; between the regions it takes the mean of the hidden features the first region left,
  re-using the two edge rows. From ANY buffer contents `V`, the buffer each stretch leaves its mean in holds the
  specification's mean of the buffers it read, and the buffers a stretch does not write keep their contents.
-/
import proofs.«143956_j10514079941583_1_alg».proof.Proof.Gen.KernelIdeal.Launch
import proofs.«143956_j10514079941583_1_alg».proof.Proof.Sage
import Idealize.ShloMosaic.Lib.StableHlo.Run

set_option maxRecDepth 8192

noncomputable section

namespace Cert.KernelIdeal.HostChain

open Cert.KernelIdeal Cert.KernelIdeal.Gen Idealize.ShloMosaic Idealize.ShloMosaic.TcCoe Idealize.ShloMosaic.StableHlo

variable {F : FTy → Type} [FloatOps F] (V : Valuation τ sig (Elt F))

/-! ## The first stretch -/

/-- The sources, a row of the edge list. -/
theorem ops0_src : after (hostOps0 (F := F)) V (Proc.devRef .tc main_v1) = Cert.Sage.edgeSrc (F := F) (V (Proc.devRef .tc main_arg1)) := by
  after_results
  rfl

/-- The destinations, the other row. -/
theorem ops0_dst : after (hostOps0 (F := F)) V (Proc.devRef .tc main_v3) = Cert.Sage.edgeDst (F := F) (V (Proc.devRef .tc main_arg1)) := by
  after_results
  rfl

set_option maxHeartbeats 4000000 in
/-- The mean of the node features. -/
theorem ops0_mean : after (hostOps0 (F := F)) V (Proc.devRef .tc main_v22)
    = Cert.Sage.mean128 (F := F) (V (Proc.devRef .tc main_arg0)) (Cert.Sage.edgeSrc (F := F) (V (Proc.devRef .tc main_arg1)))
        (Cert.Sage.edgeDst (F := F) (V (Proc.devRef .tc main_arg1))) := by
  after_results_simp
  rfl

/-- It writes no argument. -/
theorem ops0_arg0 : after (hostOps0 (F := F)) V (Proc.devRef .tc main_arg0) = V (Proc.devRef .tc main_arg0) := by after_results
theorem ops0_arg2 : after (hostOps0 (F := F)) V (Proc.devRef .tc main_arg2) = V (Proc.devRef .tc main_arg2) := by after_results
theorem ops0_arg3 : after (hostOps0 (F := F)) V (Proc.devRef .tc main_arg3) = V (Proc.devRef .tc main_arg3) := by after_results
theorem ops0_arg4 : after (hostOps0 (F := F)) V (Proc.devRef .tc main_arg4) = V (Proc.devRef .tc main_arg4) := by after_results
theorem ops0_arg5 : after (hostOps0 (F := F)) V (Proc.devRef .tc main_arg5) = V (Proc.devRef .tc main_arg5) := by after_results
theorem ops0_arg6 : after (hostOps0 (F := F)) V (Proc.devRef .tc main_arg6) = V (Proc.devRef .tc main_arg6) := by after_results
theorem ops0_arg7 : after (hostOps0 (F := F)) V (Proc.devRef .tc main_arg7) = V (Proc.devRef .tc main_arg7) := by after_results

/-! ## The second stretch -/

set_option maxHeartbeats 4000000 in
/-- The mean of the hidden features, over the edge rows the first stretch left. -/
theorem ops1_mean : after (hostOps1 (F := F)) V (Proc.devRef .tc main_v42)
    = Cert.Sage.mean256 (F := F) (V (Proc.devRef .tc main_v23)) (V (Proc.devRef .tc main_v1)) (V (Proc.devRef .tc main_v3)) := by
  after_results_simp
  rfl

/-- It writes neither the hidden features nor an argument. -/
theorem ops1_hidden : after (hostOps1 (F := F)) V (Proc.devRef .tc main_v23) = V (Proc.devRef .tc main_v23) := by after_results
theorem ops1_arg5 : after (hostOps1 (F := F)) V (Proc.devRef .tc main_arg5) = V (Proc.devRef .tc main_arg5) := by after_results
theorem ops1_arg6 : after (hostOps1 (F := F)) V (Proc.devRef .tc main_arg6) = V (Proc.devRef .tc main_arg6) := by after_results
theorem ops1_arg7 : after (hostOps1 (F := F)) V (Proc.devRef .tc main_arg7) = V (Proc.devRef .tc main_arg7) := by after_results

end Cert.KernelIdeal.HostChain

end
-- ==== Proof.LibPlainDot.lean ====
/-
  A plain two-dimensional product, [M, K] times [K, N], read at an index at the ideal values, at symbolic extents.

  The accelerator's matrix product into a zero accumulator and the host's `dot_general` are both, at the entry
  (r, c), the sum over the contracted coordinate k of left (r, k) times right (k, c): no rounding and no order of
  summation is left in either. So a product taken on a block of rows of the left operand is the same rows of the
  product taken on the whole operand.

  Also here: a vector of N entries laid as one row and repeated down M rows, in the two spellings a program meets it
  in (a shape cast followed by a broadcast; two `broadcast_in_dim`s), read at (r, c): entry c of the vector.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib.PlainDot

open Idealize.ShloMosaic Idealize.ShloMosaic.ValueIdx

variable {M K N : ℕ}

/-- The left operand's row is the result's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contracted coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contracted coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the result's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by the contracted coordinate `k : Fin K`, with the two
    operand indices written out as (row, k) and (k, column). -/
theorem sum_contr {φ₁ φ₂ : FTy} (l : FVec Ideal ⟨2, ![M, K]⟩ φ₁) (r : FVec Ideal ⟨2, ![K, N]⟩ φ₂)
    (i : (⟨2, ![M, N]⟩ : Shape).Idx) :
    (∑ q : (DotDims.plain M K N).contr.Idx, l ((DotDims.plain M K N).lhsIdx i q) * r ((DotDims.plain M K N).rhsIdx i q))
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs_row _ _
      | ⟨1, _⟩ => exact (lhs_col _ _).trans hk)
  have er : (DotDims.plain M K N).rhsIdx i ((contrEquiv1 (DotDims.plain M K N) K rfl rfl).symm k) = ix2 k (i 1) :=
    funext fun a => Fin.ext (by
      match a with
      | ⟨0, _⟩ => exact (rhs_row _ _).trans hk
      | ⟨1, _⟩ => exact rhs_col _ _)
  rw [el, er]
  rfl

/-- The host's product at an entry. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i = ∑ k : Fin K, l (ix2 (i 0) k) * r (ix2 k (i 1)) := by
  rw [Ideal.dotGeneral_apply, sum_contr]

/-- The accelerator's product into the zero accumulator at an entry. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply, sum_contr]

/-- ROWS OF A PRODUCT. If row `p` of a block `lb` is row `g` of `l`, and column `c` of `rb` is column `c` of `r` (the
    operands may be kept in other float formats: at the ideal values a change of format changes nothing), the
    accelerator's product of `lb` with `rb` into zero holds, at (p, c), what the host's product of `l` with `r` holds at
    (g, c). -/
theorem matmul_rows_eq_dotGeneral {Mb : ℕ} {φ₁ φ₂ ψ₁ ψ₂ : FTy} (prec prec' : Option ContractPrecision) (sched : HostSchedule)
    (lb : FVec Ideal ⟨2, ![Mb, K]⟩ φ₁) (rb : FVec Ideal ⟨2, ![K, N]⟩ φ₂)
    (l : FVec Ideal ⟨2, ![M, K]⟩ ψ₁) (r : FVec Ideal ⟨2, ![K, N]⟩ ψ₂)
    (p : Fin Mb) (g : Fin M) (c : Fin N)
    (hl : ∀ k : Fin K, (lb (ix2 p k) : EReal) = l (ix2 g k)) (hr : ∀ k : Fin K, (rb (ix2 k c) : EReal) = r (ix2 k c)) :
    FloatOps.matmul (DotDims.plain Mb K N) prec lb rb (constant ⟨2, ![Mb, N]⟩ .f32 0x00000000#32) (ix2 p c)
      = FloatOps.dotGeneral (DotDims.plain M K N) prec' sched l r (ix2 g c) := by
  rw [matmul_zero_apply, dotGeneral_apply]
  refine Finset.sum_congr rfl fun k _ => ?_
  show (lb (ix2 p k) : EReal) * (rb (ix2 k c) : EReal) = (l (ix2 g k) : EReal) * (r (ix2 k c) : EReal)
  rw [hl k, hr k]

/-! ## A vector as a row repeated down the rows -/

variable {α : Type}

/-- The kernel's spelling: `[N]` cast to `[1, N]`, broadcast to `[M, N]`. -/
theorem castRow_apply (v : (⟨1, ![N]⟩ : Shape).Idx → α) (h₁ : (⟨1, ![N]⟩ : Shape).ShapeCasts ⟨2, ![1, N]⟩)
    (h₂ : (⟨2, ![1, N]⟩ : Shape).Broadcasts ⟨2, ![M, N]⟩) (p : Fin M) (c : Fin N) :
    broadcastTo ⟨2, ![M, N]⟩ (shapeCast ⟨2, ![1, N]⟩ v h₁) h₂ (ix2 p c) = v (ix1 c) := by
  rw [broadcastTo_1b_ab_apply, shapeCast_a_1a_apply]

/-- The host's spelling: `[N]` broadcast in dimension 1 to `[1, N]`, then in dimensions 0, 1 to `[M, N]`. -/
theorem bcastRow_apply (v : (⟨1, ![N]⟩ : Shape).Idx → α) (h₁ : (⟨1, ![N]⟩ : Shape).BroadcastsInDim ⟨2, ![1, N]⟩ ![1])
    (h₂ : (⟨2, ![1, N]⟩ : Shape).BroadcastsInDim ⟨2, ![M, N]⟩ ![0, 1]) (p : Fin M) (c : Fin N) :
    broadcastInDim ⟨2, ![M, N]⟩ ![0, 1] h₂ (broadcastInDim ⟨2, ![1, N]⟩ ![1] h₁ v) (ix2 p c) = v (ix1 c) := by
  rw [broadcastInDim_apply ![0, 1] h₂ _ (ix2 p c) (ix2 (0 : Fin 1) c) (fun a => by
    match a with
    | ⟨0, _⟩ => rfl
    | ⟨1, _⟩ =>
      show c.val = if N = 1 then 0 else c.val
      split
      · have := c.isLt; omega
      · rfl)]
  exact broadcastInDim_apply ![1] h₁ v (ix2 (0 : Fin 1) c) (ix1 c) (fun a => by
    match a with
    | ⟨0, _⟩ =>
      show c.val = if N = 1 then 0 else c.val
      split
      · have := c.isLt; omega
      · rfl)

end Cert.Lib.PlainDot

end
-- ==== Proof.Payload.lean ====
/-
  One grid point's block of each fused linear map is the same rows of the whole map.

  The kernel at a point holds 5000 consecutive rows of the mean and of the features, and all of both weight matrices
  and of the bias. Its stored block is `(meanB · Wl + xB · Wr) + b` (then `max(·, 0)` in the first layer), the products
  taken on the block's rows with operands narrowed to bf16 — the identity at the ideal values. Entry (p, q) of that block
  is entry (o + p, q) of the whole map when row p of each block is row o + p of its array: each product is the sum
  over the contracted coordinate of the same factors, and the bias row does not depend on the row.
-/
import proofs.«143956_j10514079941583_1_alg».proof.Proof.Gen.KernelIdeal.Skeleton
import proofs.«143956_j10514079941583_1_alg».proof.Proof.Sage
import proofs.«143956_j10514079941583_1_alg».proof.Proof.LibPlainDot

noncomputable section

namespace Cert.KernelIdeal.Payload

open Idealize.ShloMosaic Idealize.ShloMosaic.ValueIdx Cert.Lib.PlainDot

/-- The kernel's and the reference's dimension numbers are the plain product's. -/
theorem kdot0 : Cert.KernelIdeal.dot_S5000x128_S128x256_S5000x256_1_0_0_1_n_n = DotDims.plain 5000 128 256 := rfl
theorem rdot0 : Cert.ReferenceIdeal.dot_S50000x128_S128x256_S50000x256_1_0_0_1_n_n = DotDims.plain 50000 128 256 := rfl
theorem kdot1 : Cert.KernelIdeal.dot_S5000x256_S256x128_S5000x128_1_0_0_1_n_n = DotDims.plain 5000 256 128 := rfl
theorem rdot1 : Cert.ReferenceIdeal.dot_S50000x256_S256x128_S50000x128_1_0_0_1_n_n = DotDims.plain 50000 256 128 := rfl

/-- FIRST LAYER. Entry (p, q) of the stored block is entry (g, q) of the layer on the whole arrays, when row p of the
    mean block and of the feature block is row g of the mean and of the features. -/
theorem pay0_apply (meanB xB : Vec Ideal Cert.KernelIdeal.S5000x128 .f32) (wl wr : Vec Ideal Cert.KernelIdeal.S128x256 .f32)
    (b : Vec Ideal Cert.KernelIdeal.S256 .f32)
    (mean x : (⟨Cert.ReferenceIdeal.S50000x128, .f32⟩ : BufTy).Contents (Elt Ideal))
    (p : Fin 5000) (g : Fin 50000) (q : Fin 256)
    (hmean : ∀ k : Fin 128, meanB (ix2 p k) = mean (ix2 g k)) (hx : ∀ k : Fin 128, xB (ix2 p k) = x (ix2 g k)) :
    Cert.KernelIdeal.Gen.k0_pay1 (F := Ideal) meanB xB wl wr b (ix2 p q) = Cert.Sage.layer1 (F := Ideal) mean x wl wr b (ix2 g q) := by
  unfold Cert.KernelIdeal.Gen.k0_pay1 Cert.Sage.layer1
  show max ((_ + _) + _) _ = max ((_ + _) + _) _
  refine congrArg₂ max (congrArg₂ (· + ·) (congrArg₂ (· + ·) ?_ ?_) ?_) ?_
  · exact matmul_rows_eq_dotGeneral (M := 50000) (K := 128) (N := 256) none none .single _ _ mean wl p g q
      (fun k => (congrFun (shapeCast_self meanB _) (ix2 p k)).trans (hmean k)) (fun k => rfl)
  · exact matmul_rows_eq_dotGeneral (M := 50000) (K := 128) (N := 256) none none .single _ _ x wr p g q
      (fun k => hx k) (fun k => rfl)
  · exact (castRow_apply (M := 5000) (N := 256) b _ _ p q).trans (bcastRow_apply (M := 50000) (N := 256) b _ _ g q).symm
  · exact (broadcastInDim_apply ![] _ (constant (F := Ideal) Cert.ReferenceIdeal.S_ .f32 0x00000000#32)
      (ix2 g q) ix0 (fun a => a.elim0)).symm

/-- SECOND LAYER, the same without the final maximum. -/
theorem pay1_apply (meanB hB : Vec Ideal Cert.KernelIdeal.S5000x256 .f32) (wl wr : Vec Ideal Cert.KernelIdeal.S256x128 .f32)
    (b : Vec Ideal Cert.KernelIdeal.S128 .f32)
    (mean h : (⟨Cert.ReferenceIdeal.S50000x256, .f32⟩ : BufTy).Contents (Elt Ideal))
    (p : Fin 5000) (g : Fin 50000) (q : Fin 128)
    (hmean : ∀ k : Fin 256, meanB (ix2 p k) = mean (ix2 g k)) (hh : ∀ k : Fin 256, hB (ix2 p k) = h (ix2 g k)) :
    Cert.KernelIdeal.Gen.k1_pay1 (F := Ideal) meanB hB wl wr b (ix2 p q) = Cert.Sage.layer2 (F := Ideal) mean h wl wr b (ix2 g q) := by
  unfold Cert.KernelIdeal.Gen.k1_pay1 Cert.Sage.layer2
  show (_ + _) + _ = (_ + _) + _
  refine congrArg₂ (· + ·) (congrArg₂ (· + ·) ?_ ?_) ?_
  · exact matmul_rows_eq_dotGeneral (M := 50000) (K := 256) (N := 128) none none .single _ _ mean wl p g q
      (fun k => (congrFun (shapeCast_self meanB _) (ix2 p k)).trans (hmean k)) (fun k => rfl)
  · exact matmul_rows_eq_dotGeneral (M := 50000) (K := 256) (N := 128) none none .single _ _ h wr p g q
      (fun k => (congrFun (shapeCast_self hB _) (ix2 p k)).trans (hh k)) (fun k => rfl)
  · exact (castRow_apply (M := 5000) (N := 128) b _ _ p q).trans (bcastRow_apply (M := 50000) (N := 128) b _ _ g q).symm

end Cert.KernelIdeal.Payload

end
-- ==== Proof.Region0.lean ====
/-
  The first kernel region: the output array ends at the first layer of the arrays the region finds.

  The region runs ten grid points; point t is handed rows 5000·t … 5000·t + 4999 of the mean and of the features and the
  whole of both weight matrices and of the bias, and writes back the same rows of its output array. Each block written
  back is those rows of the layer applied to the whole arrays (the payload lemma), the ten blocks tile the output, so
  the output array ends holding the layer of the arrays the region was entered with — whatever those contents are.
-/
import proofs.«143956_j10514079941583_1_alg».proof.Proof.Gen.KernelIdeal.Frame
import proofs.«143956_j10514079941583_1_alg».proof.Proof.Payload
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's one store covers its buffer: what it leaves there is the payload of the loaded blocks. -/
theorem out_eq (x0 x1 : Vec Ideal S5000x128 .f32) (x2 x3 : Vec Ideal S128x256 .f32) (x4 : Vec Ideal S256 .f32) :
    out0_5 (F := Ideal) x0 x1 x2 x3 x4 = k0_pay1 (F := Ideal) x0 x1 x2 x3 x4 := by
  unfold out0_5
  rw [View.canon_unit_zero hz2]
  simp only [View.ld_unit_zero (S := S5000x128) hz2, View.ld_unit_zero (S := S128x256) hz2, View.ld_unit_zero (S := S256) hz1]

/-- The printed index maps over the grid: the row-blocked windows sit at block row t, the others at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row p of the mean's block at point t is row 5000·t + p of the mean as the region finds it. -/
theorem mean_rows (c : Dev nD) (t : Fin cfg0.N) (p : Fin 5000) (k : Fin 128) (g : Fin 50000) (hg : g.val = 5000 * t.val + p.val) :
    (iblk0 V c 0 t : Vec Ideal S5000x128 .f32) (ix2 p k) = (V c main_v22 : S50000x128.Idx → Elt Ideal .f32) (ix2 g k) := by
  obtain ⟨e0, e1, -⟩ := idx_facts t
  unfold iblk0
  rw [View.read_apply]
  show V c main_v22 _ = V c main_v22 _
  refine congrArg _ (funext fun a => Fin.ext ?_)
  match a with
  | ⟨0, _⟩ => show win0_0.index t (0 : Fin 2) * 5000 + 1 * p.val = g.val; rw [e0, hg]; omega
  | ⟨1, _⟩ => show win0_0.index t (1 : Fin 2) * 128 + 1 * k.val = k.val; rw [e1]; omega

/-- The same of the features' block. -/
theorem x_rows (c : Dev nD) (t : Fin cfg0.N) (p : Fin 5000) (k : Fin 128) (g : Fin 50000) (hg : g.val = 5000 * t.val + p.val) :
    (iblk0 V c 1 t : Vec Ideal S5000x128 .f32) (ix2 p k) = (V c main_arg0 : S50000x128.Idx → Elt Ideal .f32) (ix2 g k) := by
  obtain ⟨-, -, e0, e1, -⟩ := idx_facts t
  unfold iblk0
  rw [View.read_apply]
  show V c main_arg0 _ = V c main_arg0 _
  refine congrArg _ (funext fun a => Fin.ext ?_)
  match a with
  | ⟨0, _⟩ => show win0_1.index t (0 : Fin 2) * 5000 + 1 * p.val = g.val; rw [e0, hg]; omega
  | ⟨1, _⟩ => show win0_1.index t (1 : Fin 2) * 128 + 1 * k.val = k.val; rw [e1]; omega

/-- The weight windows' one block is the whole matrix. -/
theorem wl_whole (c : Dev nD) (t : Fin cfg0.N) :
    (iblk0 V c 2 t : Vec Ideal S128x256 .f32) = (V c main_arg2 : S128x256.Idx → Elt Ideal .f32) := by
  obtain ⟨-, -, -, -, e0, e1, -⟩ := idx_facts t
  funext y
  unfold iblk0
  rw [View.read_apply]
  show V c main_arg2 _ = V c main_arg2 y
  refine congrArg _ (funext fun a => Fin.ext ?_)
  match a with
  | ⟨0, _⟩ => show win0_2.index t (0 : Fin 2) * 128 + 1 * (y 0).val = (y 0).val; rw [e0]; omega
  | ⟨1, _⟩ => show win0_2.index t (1 : Fin 2) * 256 + 1 * (y 1).val = (y 1).val; rw [e1]; omega

theorem wr_whole (c : Dev nD) (t : Fin cfg0.N) :
    (iblk0 V c 3 t : Vec Ideal S128x256 .f32) = (V c main_arg3 : S128x256.Idx → Elt Ideal .f32) := by
  obtain ⟨-, -, -, -, -, -, e0, e1, -⟩ := idx_facts t
  funext y
  unfold iblk0
  rw [View.read_apply]
  show V c main_arg3 _ = V c main_arg3 y
  refine congrArg _ (funext fun a => Fin.ext ?_)
  match a with
  | ⟨0, _⟩ => show win0_3.index t (0 : Fin 2) * 128 + 1 * (y 0).val = (y 0).val; rw [e0]; omega
  | ⟨1, _⟩ => show win0_3.index t (1 : Fin 2) * 256 + 1 * (y 1).val = (y 1).val; rw [e1]; omega

/-- The bias window's one block is the whole vector. -/
theorem b_whole (c : Dev nD) (t : Fin cfg0.N) :
    (iblk0 V c 4 t : Vec Ideal S256 .f32) = (V c main_arg4 : S256.Idx → Elt Ideal .f32) := by
  obtain ⟨-, -, -, -, -, -, -, -, e0, -⟩ := idx_facts t
  funext y
  unfold iblk0
  rw [View.read_apply]
  show V c main_arg4 _ = V c main_arg4 y
  refine congrArg _ (funext fun a => Fin.ext ?_)
  match a with
  | ⟨0, _⟩ => show win0_4.index t (0 : Fin 1) * 256 + 1 * (y 0).val = (y 0).val; rw [e0]; omega

/-- The layer of the arrays the region is entered with. -/
abbrev G (c : Dev nD) : S50000x256.Idx → Elt Ideal .f32 :=
  Cert.Sage.layer1 (F := Ideal) (V c main_v22) (V c main_arg0) (V c main_arg2) (V c main_arg3) (V c main_arg4)

/-- One entry of a point's payload is the entry of `G` at the same column, 5000·t rows further down. -/
theorem pay_entry (c : Dev nD) (t : Fin cfg0.N) (y : S5000x256.Idx) (i : S50000x256.Idx)
    (hi0 : (i 0).val = 5000 * t.val + (y 0).val) (hi1 : (i 1).val = (y 1).val) :
    k0_pay1 (F := Ideal) (iblk0 V c 0 t) (iblk0 V c 1 t) (iblk0 V c 2 t) (iblk0 V c 3 t) (iblk0 V c 4 t) y = G V c i := by
  obtain ⟨p, q, rfl⟩ : ∃ (p : Fin 5000) (q : Fin 256), y = ix2 p q := ⟨y 0, y 1, eq_ix2 y⟩
  obtain ⟨g, q', rfl⟩ : ∃ (g : Fin 50000) (q' : Fin 256), i = ix2 g q' := ⟨i 0, i 1, eq_ix2 i⟩
  obtain rfl : q' = q := Fin.ext hi1
  rw [wl_whole V c t, wr_whole V c t, b_whole V c t]
  exact Cert.KernelIdeal.Payload.pay0_apply (iblk0 V c 0 t) (iblk0 V c 1 t) (V c main_arg2) (V c main_arg3) (V c main_arg4)
    (V c main_v22) (V c main_arg0) p g q' (fun k => mean_rows V c t p k g hi0) (fun k => x_rows V c t p k g hi0)

/-- WHAT POINT t WRITES BACK is its block of `G`. -/
theorem flushed_eq (c : Dev nD) (t : Fin cfg0.N) :
    (dat0 (F := Ideal) V c).flushed 5 t = ((cfg0.win 5).blk t).view.read (Elt Ideal) (G V c) := by
  obtain ⟨-, -, -, -, -, -, -, -, -, e0, e1⟩ := idx_facts t
  show (cfg0.win 5).cut (grid0.coords t) ((dat0 (F := Ideal) V c).after 5 t) = _
  rw [after0_5, out_eq]
  funext j
  rw [View.read_apply]
  refine pay_entry V c t j _ ?_ ?_
  · show win0_5.index t (0 : Fin 2) * 5000 + 1 * (j 0).val = 5000 * t.val + (j 0).val; rw [e0]; omega
  · show win0_5.index t (1 : Fin 2) * 256 + 1 * (j 1).val = (j 1).val; rw [e1]; omega

/-- An index of the output array is in point t's block iff each coordinate is in the block's range on its axis. -/
theorem mem_blk (t : Fin cfg0.N) (i : S50000x256.Idx) :
    i ∈ ((cfg0.win 5).blk t).view.set ↔ ∀ a : Fin 2, win0_5.index t a * S5000x256.size a ≤ (i a).val ∧ (i a).val < win0_5.index t a * S5000x256.size a + S5000x256.size a := by
  show i ∈ ((View.whole main_v23).slice (win0_5.rect t)).set ↔ _
  rw [View.set_slice_whole, Rect.mem_set_unit]
  exact Iff.rfl

/-- Every row of the output lies in the block of the point its row number divided by 5000 names. -/
theorem cover (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hN : cfg0.N = 10 := N_0
  refine ⟨⟨(i 0).val / 5000, by rw [hN]; omega⟩, flush0_5 _, ?_⟩
  obtain ⟨-, -, -, -, -, -, -, -, -, e0, e1⟩ := idx_facts ⟨(i 0).val / 5000, by rw [hN]; omega⟩
  rw [mem_blk]
  intro a
  match a with
  | ⟨0, _⟩ =>
    show win0_5.index ⟨(i 0).val / 5000, _⟩ (0 : Fin 2) * 5000 ≤ (i 0).val ∧ (i 0).val < win0_5.index ⟨(i 0).val / 5000, _⟩ (0 : Fin 2) * 5000 + 5000
    rw [e0]
    show (i 0).val / 5000 * 5000 ≤ (i 0).val ∧ (i 0).val < (i 0).val / 5000 * 5000 + 5000
    omega
  | ⟨1, _⟩ =>
    show win0_5.index ⟨(i 0).val / 5000, _⟩ (1 : Fin 2) * 256 ≤ (i 1).val ∧ (i 1).val < win0_5.index ⟨(i 0).val / 5000, _⟩ (1 : Fin 2) * 256 + 256
    rw [e1]
    omega

/-- THE OUTPUT ARRAY after the region: the layer of the arrays it was entered with. -/
theorem final (c : Dev nD) : (dat0 (F := Ideal) V c).arrAt 5 cfg0.N = G V c :=
  (dat0 (F := Ideal) V c).arrAt_eq_of_cover 5 (G V c) (fun t _ => flushed_eq V c t) (cover)

end Cert.KernelIdeal.Region0

end
-- ==== Proof.Region1.lean ====
/-
  The second kernel region: the output array ends at the second layer of the arrays the region finds.

  The region runs ten grid points; point t is handed rows 5000·t … 5000·t + 4999 of the mean and of the features and the
  whole of both weight matrices and of the bias, and writes back the same rows of its output array. Each block written
  back is those rows of the layer applied to the whole arrays (the payload lemma), the ten blocks tile the output, so
  the output array ends holding the layer of the arrays the region was entered with — whatever those contents are.
-/
import proofs.«143956_j10514079941583_1_alg».proof.Proof.Gen.KernelIdeal.Frame
import proofs.«143956_j10514079941583_1_alg».proof.Proof.Payload
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's one store covers its buffer: what it leaves there is the payload of the loaded blocks. -/
theorem out_eq (x0 x1 : Vec Ideal S5000x256 .f32) (x2 x3 : Vec Ideal S256x128 .f32) (x4 : Vec Ideal S128 .f32) :
    out1_5 (F := Ideal) x0 x1 x2 x3 x4 = k1_pay1 (F := Ideal) x0 x1 x2 x3 x4 := by
  unfold out1_5
  rw [View.canon_unit_zero hz2]
  simp only [View.ld_unit_zero (S := S5000x256) hz2, View.ld_unit_zero (S := S256x128) hz2, View.ld_unit_zero (S := S128) hz1]

/-- The printed index maps over the grid: the row-blocked windows sit at block row t, the others at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Row p of the mean's block at point t is row 5000·t + p of the mean as the region finds it. -/
theorem mean_rows (c : Dev nD) (t : Fin cfg1.N) (p : Fin 5000) (k : Fin 256) (g : Fin 50000) (hg : g.val = 5000 * t.val + p.val) :
    (iblk1 V c 0 t : Vec Ideal S5000x256 .f32) (ix2 p k) = (V c main_v42 : S50000x256.Idx → Elt Ideal .f32) (ix2 g k) := by
  obtain ⟨e0, e1, -⟩ := idx_facts t
  unfold iblk1
  rw [View.read_apply]
  show V c main_v42 _ = V c main_v42 _
  refine congrArg _ (funext fun a => Fin.ext ?_)
  match a with
  | ⟨0, _⟩ => show win1_0.index t (0 : Fin 2) * 5000 + 1 * p.val = g.val; rw [e0, hg]; omega
  | ⟨1, _⟩ => show win1_0.index t (1 : Fin 2) * 256 + 1 * k.val = k.val; rw [e1]; omega

/-- The same of the features' block. -/
theorem x_rows (c : Dev nD) (t : Fin cfg1.N) (p : Fin 5000) (k : Fin 256) (g : Fin 50000) (hg : g.val = 5000 * t.val + p.val) :
    (iblk1 V c 1 t : Vec Ideal S5000x256 .f32) (ix2 p k) = (V c main_v23 : S50000x256.Idx → Elt Ideal .f32) (ix2 g k) := by
  obtain ⟨-, -, e0, e1, -⟩ := idx_facts t
  unfold iblk1
  rw [View.read_apply]
  show V c main_v23 _ = V c main_v23 _
  refine congrArg _ (funext fun a => Fin.ext ?_)
  match a with
  | ⟨0, _⟩ => show win1_1.index t (0 : Fin 2) * 5000 + 1 * p.val = g.val; rw [e0, hg]; omega
  | ⟨1, _⟩ => show win1_1.index t (1 : Fin 2) * 256 + 1 * k.val = k.val; rw [e1]; omega

/-- The weight windows' one block is the whole matrix. -/
theorem wl_whole (c : Dev nD) (t : Fin cfg1.N) :
    (iblk1 V c 2 t : Vec Ideal S256x128 .f32) = (V c main_arg5 : S256x128.Idx → Elt Ideal .f32) := by
  obtain ⟨-, -, -, -, e0, e1, -⟩ := idx_facts t
  funext y
  unfold iblk1
  rw [View.read_apply]
  show V c main_arg5 _ = V c main_arg5 y
  refine congrArg _ (funext fun a => Fin.ext ?_)
  match a with
  | ⟨0, _⟩ => show win1_2.index t (0 : Fin 2) * 256 + 1 * (y 0).val = (y 0).val; rw [e0]; omega
  | ⟨1, _⟩ => show win1_2.index t (1 : Fin 2) * 128 + 1 * (y 1).val = (y 1).val; rw [e1]; omega

theorem wr_whole (c : Dev nD) (t : Fin cfg1.N) :
    (iblk1 V c 3 t : Vec Ideal S256x128 .f32) = (V c main_arg6 : S256x128.Idx → Elt Ideal .f32) := by
  obtain ⟨-, -, -, -, -, -, e0, e1, -⟩ := idx_facts t
  funext y
  unfold iblk1
  rw [View.read_apply]
  show V c main_arg6 _ = V c main_arg6 y
  refine congrArg _ (funext fun a => Fin.ext ?_)
  match a with
  | ⟨0, _⟩ => show win1_3.index t (0 : Fin 2) * 256 + 1 * (y 0).val = (y 0).val; rw [e0]; omega
  | ⟨1, _⟩ => show win1_3.index t (1 : Fin 2) * 128 + 1 * (y 1).val = (y 1).val; rw [e1]; omega

/-- The bias window's one block is the whole vector. -/
theorem b_whole (c : Dev nD) (t : Fin cfg1.N) :
    (iblk1 V c 4 t : Vec Ideal S128 .f32) = (V c main_arg7 : S128.Idx → Elt Ideal .f32) := by
  obtain ⟨-, -, -, -, -, -, -, -, e0, -⟩ := idx_facts t
  funext y
  unfold iblk1
  rw [View.read_apply]
  show V c main_arg7 _ = V c main_arg7 y
  refine congrArg _ (funext fun a => Fin.ext ?_)
  match a with
  | ⟨0, _⟩ => show win1_4.index t (0 : Fin 1) * 128 + 1 * (y 0).val = (y 0).val; rw [e0]; omega

/-- The layer of the arrays the region is entered with. -/
abbrev G (c : Dev nD) : S50000x128.Idx → Elt Ideal .f32 :=
  Cert.Sage.layer2 (F := Ideal) (V c main_v42) (V c main_v23) (V c main_arg5) (V c main_arg6) (V c main_arg7)

/-- One entry of a point's payload is the entry of `G` at the same column, 5000·t rows further down. -/
theorem pay_entry (c : Dev nD) (t : Fin cfg1.N) (y : S5000x128.Idx) (i : S50000x128.Idx)
    (hi0 : (i 0).val = 5000 * t.val + (y 0).val) (hi1 : (i 1).val = (y 1).val) :
    k1_pay1 (F := Ideal) (iblk1 V c 0 t) (iblk1 V c 1 t) (iblk1 V c 2 t) (iblk1 V c 3 t) (iblk1 V c 4 t) y = G V c i := by
  obtain ⟨p, q, rfl⟩ : ∃ (p : Fin 5000) (q : Fin 128), y = ix2 p q := ⟨y 0, y 1, eq_ix2 y⟩
  obtain ⟨g, q', rfl⟩ : ∃ (g : Fin 50000) (q' : Fin 128), i = ix2 g q' := ⟨i 0, i 1, eq_ix2 i⟩
  obtain rfl : q' = q := Fin.ext hi1
  rw [wl_whole V c t, wr_whole V c t, b_whole V c t]
  exact Cert.KernelIdeal.Payload.pay1_apply (iblk1 V c 0 t) (iblk1 V c 1 t) (V c main_arg5) (V c main_arg6) (V c main_arg7)
    (V c main_v42) (V c main_v23) p g q' (fun k => mean_rows V c t p k g hi0) (fun k => x_rows V c t p k g hi0)

/-- WHAT POINT t WRITES BACK is its block of `G`. -/
theorem flushed_eq (c : Dev nD) (t : Fin cfg1.N) :
    (dat1 (F := Ideal) V c).flushed 5 t = ((cfg1.win 5).blk t).view.read (Elt Ideal) (G V c) := by
  obtain ⟨-, -, -, -, -, -, -, -, -, e0, e1⟩ := idx_facts t
  show (cfg1.win 5).cut (grid1.coords t) ((dat1 (F := Ideal) V c).after 5 t) = _
  rw [after1_5, out_eq]
  funext j
  rw [View.read_apply]
  refine pay_entry V c t j _ ?_ ?_
  · show win1_5.index t (0 : Fin 2) * 5000 + 1 * (j 0).val = 5000 * t.val + (j 0).val; rw [e0]; omega
  · show win1_5.index t (1 : Fin 2) * 128 + 1 * (j 1).val = (j 1).val; rw [e1]; omega

/-- An index of the output array is in point t's block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v43).slice (win1_5.rect t)).set ↔ _
  rw [View.set_slice_whole, Rect.mem_set_unit]
  exact Iff.rfl

/-- Every row of the output lies in the block of the point its row number divided by 5000 names. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_5 _, ?_⟩
  obtain ⟨-, -, -, -, -, -, -, -, -, e0, e1⟩ := idx_facts ⟨(i 0).val / 5000, by rw [hN]; omega⟩
  rw [mem_blk]
  intro a
  match a with
  | ⟨0, _⟩ =>
    show win1_5.index ⟨(i 0).val / 5000, _⟩ (0 : Fin 2) * 5000 ≤ (i 0).val ∧ (i 0).val < win1_5.index ⟨(i 0).val / 5000, _⟩ (0 : Fin 2) * 5000 + 5000
    rw [e0]
    show (i 0).val / 5000 * 5000 ≤ (i 0).val ∧ (i 0).val < (i 0).val / 5000 * 5000 + 5000
    omega
  | ⟨1, _⟩ =>
    show win1_5.index ⟨(i 0).val / 5000, _⟩ (1 : Fin 2) * 128 ≤ (i 1).val ∧ (i 1).val < win1_5.index ⟨(i 0).val / 5000, _⟩ (1 : Fin 2) * 128 + 128
    rw [e1]
    omega

/-- THE OUTPUT ARRAY after the region: the layer of the arrays it was entered with. -/
theorem final (c : Dev nD) : (dat1 (F := Ideal) V c).arrAt 5 cfg1.N = G V c :=
  (dat1 (F := Ideal) V c).arrAt_eq_of_cover 5 (G V c) (fun t _ => flushed_eq V c t) (cover)

end Cert.KernelIdeal.Region1

end
-- ==== Proof.KernelResult.lean ====
/-
  The idealized kernel program's result, as one function of its arguments.

  The run leaves the result buffer at the second region's output array. That array is the second layer of what the
  second stretch of host operations left: the mean of the hidden features, the hidden features themselves, and the
  second layer's parameters, which nothing wrote. The hidden features are the first region's output array: the first
  layer of the mean of the node features, the node features and the first layer's parameters. Chained, the result is the
  specification's two-layer function of the eight arguments.
-/
import proofs.«143956_j10514079941583_1_alg».proof.Proof.KernelRun
import proofs.«143956_j10514079941583_1_alg».proof.Proof.HostChain
import proofs.«143956_j10514079941583_1_alg».proof.Proof.Region0
import proofs.«143956_j10514079941583_1_alg».proof.Proof.Region1

set_option maxRecDepth 16384

noncomputable section

namespace Cert.KernelIdeal.Result

open Cert.KernelIdeal Cert.KernelIdeal.Gen
open Idealize.ShloMosaic Idealize.ShloMosaic.TcCoe Idealize.SL.Sem
open Cert.KernelIdeal.HostChain

variable (m : (ℓ : Loc nD τ sig) → Buf (Elt Ideal) ℓ) (ρ : Dev nD → PrngReg)

/-! ## What the first region is entered with -/

theorem entry0_mean (c : Dev nD) : V1 m ρ c main_v22
    = Cert.Sage.mean128 (F := Ideal) (m ((c.tc : Thread nD τ).loc main_arg0)) (Cert.Sage.edgeSrc (F := Ideal) (m ((c.tc : Thread nD τ).loc main_arg1)))
        (Cert.Sage.edgeDst (F := Ideal) (m ((c.tc : Thread nD τ).loc main_arg1))) := ops0_mean (W0 m ρ c)
theorem entry0_arg0 (c : Dev nD) : V1 m ρ c main_arg0 = m ((c.tc : Thread nD τ).loc main_arg0) := ops0_arg0 (W0 m ρ c)
theorem entry0_arg2 (c : Dev nD) : V1 m ρ c main_arg2 = m ((c.tc : Thread nD τ).loc main_arg2) := ops0_arg2 (W0 m ρ c)
theorem entry0_arg3 (c : Dev nD) : V1 m ρ c main_arg3 = m ((c.tc : Thread nD τ).loc main_arg3) := ops0_arg3 (W0 m ρ c)
theorem entry0_arg4 (c : Dev nD) : V1 m ρ c main_arg4 = m ((c.tc : Thread nD τ).loc main_arg4) := ops0_arg4 (W0 m ρ c)

/-- The first region's output array: the hidden features. -/
theorem hidden_val (c : Dev nD) : W2 m ρ c (Proc.devRef .tc main_v23)
    = Cert.Sage.hidden (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  rw [Cert.KernelIdeal.RunValue.hidden_eq, Cert.KernelIdeal.Region0.final]
  show Cert.Sage.layer1 (F := Ideal) (V1 m ρ c main_v22) (V1 m ρ c main_arg0) (V1 m ρ c main_arg2) (V1 m ρ c main_arg3) (V1 m ρ c main_arg4) = _
  rw [entry0_mean, entry0_arg0, entry0_arg2, entry0_arg3, entry0_arg4]
  rfl

/-! ## What the second region is entered with -/

/-- The edge rows outlive the first region: it writes neither. -/
theorem mid_src (c : Dev nD) : W2 m ρ c (Proc.devRef .tc main_v1) = Cert.Sage.edgeSrc (F := Ideal) (m ((c.tc : Thread nD τ).loc main_arg1)) :=
  (W2_of_ne m ρ c main_v1 (by decide)).trans (ops0_src (W0 m ρ c))
theorem mid_dst (c : Dev nD) : W2 m ρ c (Proc.devRef .tc main_v3) = Cert.Sage.edgeDst (F := Ideal) (m ((c.tc : Thread nD τ).loc main_arg1)) :=
  (W2_of_ne m ρ c main_v3 (by decide)).trans (ops0_dst (W0 m ρ c))
theorem mid_arg5 (c : Dev nD) : W2 m ρ c (Proc.devRef .tc main_arg5) = m ((c.tc : Thread nD τ).loc main_arg5) :=
  (W2_of_ne m ρ c main_arg5 (by decide)).trans (ops0_arg5 (W0 m ρ c))
theorem mid_arg6 (c : Dev nD) : W2 m ρ c (Proc.devRef .tc main_arg6) = m ((c.tc : Thread nD τ).loc main_arg6) :=
  (W2_of_ne m ρ c main_arg6 (by decide)).trans (ops0_arg6 (W0 m ρ c))
theorem mid_arg7 (c : Dev nD) : W2 m ρ c (Proc.devRef .tc main_arg7) = m ((c.tc : Thread nD τ).loc main_arg7) :=
  (W2_of_ne m ρ c main_arg7 (by decide)).trans (ops0_arg7 (W0 m ρ c))

theorem entry1_mean (c : Dev nD) : V3 m ρ c main_v42
    = Cert.Sage.mean256 (F := Ideal)
        (Cert.Sage.hidden (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)))
        (Cert.Sage.edgeSrc (F := Ideal) (m ((c.tc : Thread nD τ).loc main_arg1))) (Cert.Sage.edgeDst (F := Ideal) (m ((c.tc : Thread nD τ).loc main_arg1))) :=
  (ops1_mean (W2 m ρ c)).trans (by rw [hidden_val, mid_src, mid_dst])
theorem entry1_hidden (c : Dev nD) : V3 m ρ c main_v23
    = Cert.Sage.hidden (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) :=
  (ops1_hidden (W2 m ρ c)).trans (hidden_val m ρ c)
theorem entry1_arg5 (c : Dev nD) : V3 m ρ c main_arg5 = m ((c.tc : Thread nD τ).loc main_arg5) := (ops1_arg5 (W2 m ρ c)).trans (mid_arg5 m ρ c)
theorem entry1_arg6 (c : Dev nD) : V3 m ρ c main_arg6 = m ((c.tc : Thread nD τ).loc main_arg6) := (ops1_arg6 (W2 m ρ c)).trans (mid_arg6 m ρ c)
theorem entry1_arg7 (c : Dev nD) : V3 m ρ c main_arg7 = m ((c.tc : Thread nD τ).loc main_arg7) := (ops1_arg7 (W2 m ρ c)).trans (mid_arg7 m ρ c)

/-- The result buffer's last contents: the two-layer function of the arguments. -/
theorem result_val (c : Dev nD) : W4 m ρ c (Proc.devRef .tc main_v43)
    = Cert.Sage.sage (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) := by
  rw [Cert.KernelIdeal.RunValue.result_eq, Cert.KernelIdeal.Region1.final]
  show Cert.Sage.layer2 (F := Ideal) (V3 m ρ c main_v42) (V3 m ρ c main_v23) (V3 m ρ c main_arg5) (V3 m ρ c main_arg6) (V3 m ρ c main_arg7) = _
  rw [entry1_mean, entry1_hidden, entry1_arg5, entry1_arg6, entry1_arg7]
  rfl

/-- THE RUN, READ: every weakly fair execution of the idealized kernel program terminates, nothing faulting, with the
    result at the two-layer function of the arguments and the arguments unchanged. -/
theorem run : θ_run defs (onTc (τ := τ) (main (F := Ideal))) ⟨m, fun _ => 0, ρ⟩ (fun r => ∀ c : Dev nD,
      r.2.mem ((c.tc : Thread nD τ).loc main_v43)
        = Cert.Sage.sage (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (result_val m ρ c), (h c).2⟩)
    (Cert.KernelIdeal.RunValue.run (F := Ideal) m ρ)

end Cert.KernelIdeal.Result

end
-- ==== Proof.lean ====
/-
  The certificate of a two-layer GraphSAGE forward pass: a Pallas kernel for each layer's fused linear map, the
  mean aggregation left to the host, against a plain jnp reference.

  Both programs take node features, an edge list and two layers' parameters. A layer gathers each edge's source row,
  adds it into the edge's destination row, divides each row by its in-degree (at least 1), and maps
  `mean · Wl + x · Wr + b`; the first layer is followed by `max(·, 0)`. The kernel program runs the aggregation as the
  same host operations the reference runs, and each linear map as a kernel region over ten blocks of 5000 rows, with the
  operands narrowed to bf16 before the matrix unit — the identity at the ideal values. At the ideal values a block's
  product is the same rows of the whole product (both are the sum over the contracted coordinate of the same factors),
  so each region leaves the layer of the arrays it was entered with, and the two programs' results are the SAME term of
  the arguments: no law of the extended reals beyond that is used, and the precondition is never opened.

  The modules: `Sage` (the function, and that the reference's composed term is it), `LibPlainDot` (a plain product read at
  an entry), `Payload` (a block's entries are the layer's), `Region0` / `Region1` (each region's output array),
  `HostChain` (the host stretches), `KernelRun` (the run with the result buffer in its post), `KernelResult` (the chain).
-/
import proofs.«143956_j10514079941583_1_alg».proof.Defs
import proofs.«143956_j10514079941583_1_alg».proof.Proof.Gen.Kernel
import proofs.«143956_j10514079941583_1_alg».proof.Proof.Gen.Kernel.Skeleton
import proofs.«143956_j10514079941583_1_alg».proof.Proof.Gen.Kernel.Launch
import proofs.«143956_j10514079941583_1_alg».proof.Proof.Gen.Kernel.Points
import proofs.«143956_j10514079941583_1_alg».proof.Proof.Gen.Kernel.Frame
import proofs.«143956_j10514079941583_1_alg».proof.Proof.Gen.KernelIdeal
import proofs.«143956_j10514079941583_1_alg».proof.Proof.Gen.KernelIdeal.Skeleton
import proofs.«143956_j10514079941583_1_alg».proof.Proof.Gen.KernelIdeal.Launch
import proofs.«143956_j10514079941583_1_alg».proof.Proof.Gen.KernelIdeal.Points
import proofs.«143956_j10514079941583_1_alg».proof.Proof.Gen.KernelIdeal.Frame
import proofs.«143956_j10514079941583_1_alg».proof.Proof.Gen.ReferenceIdeal
import proofs.«143956_j10514079941583_1_alg».proof.Proof.Gen.ReferenceIdeal.Run
import proofs.«143956_j10514079941583_1_alg».proof.Proof.Gen.ReferenceIdeal.Read
import proofs.«143956_j10514079941583_1_alg».proof.Proof.Gen.Pre_finite_inputs
import proofs.«143956_j10514079941583_1_alg».proof.Proof.Sage
import proofs.«143956_j10514079941583_1_alg».proof.Proof.KernelResult
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the two-layer function of those arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.Sage.reference_eq, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
